-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S128x768 : Shape := ⟨2, ![128, 768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S128x768 : S_.BroadcastsInDim S128x768 (![] : Fin 0 → Fin S128x768.rank)
  reducesTo_S128x768_S_d0_1 : S128x768.ReducesTo [0, 1] S_

variable [Facts]

def fn {F : FTy → Type} [FloatOps F] (main_arg0 : FVec F S8x512x768 .f32) (main_arg1 : FVec F S128x768 .f32) (main_arg2 : FVec F S128x768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  main_v13
-- ==== Kernel.lean ====
abbrev S8x512x768 : Shape := ⟨3, ![8, 512, 768]⟩
abbrev S128x768 : Shape := ⟨2, ![128, 768]⟩
abbrev S8x512x512 : Shape := ⟨3, ![8, 512, 512]⟩
abbrev S8x512x1 : Shape := ⟨3, ![8, 512, 1]⟩
abbrev S1x512x768 : Shape := ⟨3, ![1, 512, 768]⟩
abbrev S1x512x512 : Shape := ⟨3, ![1, 512, 512]⟩
abbrev S1x512x1 : Shape := ⟨3, ![1, 512, 1]⟩
abbrev S512x768 : Shape := ⟨2, ![512, 768]⟩
abbrev S768x128 : Shape := ⟨2, ![768, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S512x512 : Shape := ⟨2, ![512, 512]⟩
abbrev S1x512 : Shape := ⟨2, ![1, 512]⟩
abbrev S8x512 : Shape := ⟨2, ![8, 512]⟩

abbrev nBuf : Space → Nat
  | .hbm => 6
  | .vmem => 8
  | .smem => 0
  | _ => 0

abbrev bufTy : (tb : Table) → Fin (tcTables nBuf tb) → BufTy
  | .hbm, ⟨0, _⟩ => ⟨S8x512x768, .f32⟩
  | .hbm, ⟨1, _⟩ => ⟨S128x768, .f32⟩
  | .hbm, ⟨2, _⟩ => ⟨S128x768, .f32⟩
  | .hbm, ⟨3, _⟩ => ⟨S8x512x512, .f32⟩
  | .hbm, ⟨4, _⟩ => ⟨S8x512x1, .f32⟩
  | .hbm, ⟨5, _⟩ => ⟨S8x512, .f32⟩
  | .local _ .vmem, ⟨0, _⟩ => ⟨S1x512x768, .f32⟩
  | .local _ .vmem, ⟨1, _⟩ => ⟨S1x512x768, .f32⟩
  | .local _ .vmem, ⟨2, _⟩ => ⟨S128x768, .f32⟩
  | .local _ .vmem, ⟨3, _⟩ => ⟨S128x768, .f32⟩
  | .local _ .vmem, ⟨4, _⟩ => ⟨S1x512x512, .f32⟩
  | .local _ .vmem, ⟨5, _⟩ => ⟨S1x512x512, .f32⟩
  | .local _ .vmem, ⟨6, _⟩ => ⟨S1x512x1, .f32⟩
  | .local _ .vmem, ⟨7, _⟩ => ⟨S1x512x1, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  reduces_S512x128_S512 : S512x128.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  transposes_S512x128_p1_0_S128x512 : S512x128.Transposes [1, 0] S128x512
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S8x512x1_S8x512 : S8x512x1.ShapeCasts S8x512
  dot_S512x768_S768x128_S512x128_1_0_0_1_n_n_wf : DotDims.WF S512x768 S768x128 S512x128 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x512x768.size a
  hwx0_0 : ∀ i : grid0.Coords, EltTy.bits .f32 = 32 ∨ (Rect.block (s := S8x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x512.size a
  hwx0_3 : ∀ i : grid0.Coords, EltTy.bits .f32 = 32 ∨ (Rect.block (s := S8x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x512x1.size a
  hwx0_4 : ∀ i : grid0.Coords, EltTy.bits .f32 = 32 ∨ (Rect.block (s := S8x512x1) S1x512x1.size (cc0_transform_4 i) (hinb0_4 i)).WholeWords (EltTy.packing .f32)

variable [Facts₀]

def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S128x768 : Shape := ⟨2, ![128, 768]⟩
abbrev S8x512x128 : Shape := ⟨3, ![8, 512, 128]⟩
abbrev S8x512x1x128 : Shape := ⟨4, ![8, 512, 1, 128]⟩
abbrev S8x1x512x128 : Shape := ⟨4, ![8, 1, 512, 128]⟩
abbrev S8x512x512x128 : Shape := ⟨4, ![8, 512, 512, 128]⟩
abbrev S_ : Shape := ⟨0, ![]⟩
abbrev S8x512x512 : Shape := ⟨3, ![8, 512, 512]⟩
abbrev S8x512 : Shape := ⟨2, ![8, 512]⟩

abbrev nBuf : Space → Nat
  | .hbm => 16
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S128x768, .f32⟩
  | .hbm, ⟨2, _⟩ => ⟨S128x768, .f32⟩
  | .hbm, ⟨3, _⟩ => ⟨S8x512x128, .f32⟩
  | .hbm, ⟨4, _⟩ => ⟨S8x512x1x128, .f32⟩
  | .hbm, ⟨5, _⟩ => ⟨S8x1x512x128, .f32⟩
  | .hbm, ⟨6, _⟩ => ⟨S8x512x512x128, .f32⟩
  | .hbm, ⟨7, _⟩ => ⟨S8x512x512x128, .f32⟩
  | .hbm, ⟨8, _⟩ => ⟨S8x512x512x128, .f32⟩
  | .hbm, ⟨9, _⟩ => ⟨S8x512x512x128, .f32⟩
  | .hbm, ⟨10, _⟩ => ⟨S_, .f32⟩
  | .hbm, ⟨11, _⟩ => ⟨S8x512x512, .f32⟩
  | .hbm, ⟨12, _⟩ => ⟨S8x512x128, .f32⟩
  | .hbm, ⟨13, _⟩ => ⟨S8x512x128, .f32⟩
  | .hbm, ⟨14, _⟩ => ⟨S_, .f32⟩
  | .hbm, ⟨15, _⟩ => ⟨S8x512, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S8x512x128_S8x512x1x128_0_1_3 : S8x512x128.BroadcastsInDim S8x512x1x128 (![0, 1, 3] : Fin 3 → Fin S8x512x1x128.rank)
  bcast_S8x512x128_S8x1x512x128_0_2_3 : S8x512x128.BroadcastsInDim S8x1x512x128 (![0, 2, 3] : Fin 3 → Fin S8x1x512x128.rank)
  bcast_S8x512x1x128_S8x512x512x128_0_1_2_3 : S8x512x1x128.BroadcastsInDim S8x512x512x128 (![0, 1, 2, 3] : Fin 4 → Fin S8x512x512x128.rank)
  bcast_S8x1x512x128_S8x512x512x128_0_1_2_3 : S8x1x512x128.BroadcastsInDim S8x512x512x128 (![0, 1, 2, 3] : Fin 4 → Fin S8x512x512x128.rank)
  reducesTo_S8x512x512x128_S8x512x512_d3 : S8x512x512x128.ReducesTo [3] S8x512x512
  h_S_ : 0 < S_.numel
  reducesTo_S8x512x128_S8x512_d2 : S8x512x128.ReducesTo [2] S8x512
  dot_S8x512x768_S128x768_S8x512x128_2_1_01_0_n_n_wf : DotDims.WF S8x512x768 S128x768 S8x512x128 [2] [1] [0, 1] [0] [] []

variable [Facts₀]

def dot_S8x512x768_S128x768_S8x512x128_2_1_01_0_n_n : DotDims S8x512x768 S128x768 S8x512x128 where
  lhsContracting := [2]
  rhsContracting := [1]
  lhsNonContracting := [0, 1]
  rhsNonContracting := [0]
  lhsBatch := []
  rhsBatch := []
  wf := dot_S8x512x768_S128x768_S8x512x128_2_1_01_0_n_n_wf

class Facts : Prop extends Facts₀ where

variable [Facts]
-- ==== Proof.Finite.lean ====
/-
  The precondition of this certificate states, for each of the three float inputs, that the conjunction over all
  entries of "|x| < +∞" is true. This module reads that statement back at the extended reals: under the
  precondition every entry of each of the three inputs is a real number (neither infinity, and not the junk
  value ⊥ that stands for a NaN).
-/
import proofs.«121553_j90993177133168_1_alg».proof.Pre_finite_inputs
import Idealize.ShloMosaic.PureOps.Ideal.Laws
import Idealize.ShloMosaic.Lib.ReduceAll
import Idealize.ShloMosaic.Lib.ValueIdx
import Mathlib.Data.EReal.Basic

noncomputable section

namespace Cert.FiniteInputs

open Idealize.ShloMosaic

/-- The word `0x7F800000` (sign 0, exponent all ones, fraction 0) denotes `+∞`. -/
theorem inf_word : Ideal.ofBits .f32 0x7F800000#32 = (⊤ : EReal) := by
  simp [Ideal.ofBits, Ideal.ieee]

/-- An extended real whose absolute value `max x (-x)` is below `+∞` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One element of the comparison: "`|x| < +∞` is true" at the extended reals gives a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  rw [Ideal.hostAbsf_def, Ideal.cmpf_def, Ideal.absf_def] at h
  have h' : Ideal.cmp .olt (max x (-x)) (⊤ : EReal) = 1#1 := by rw [← inf_word]; exact h
  unfold Ideal.cmp at h'
  by_contra hc
  simp [hc] at h'

/-- The scalar shape has one index. -/
theorem subsingleton_scalarIdx : Subsingleton Cert.Pre_finite_inputs.S_.Idx := ⟨fun a b => funext fun d => d.elim0⟩

/-- One array: if the conjunction over all entries of "`|x| < +∞`" is true, every entry is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hS : 0 < Cert.Pre_finite_inputs.S_.numel)
    (x : FVec Ideal s .f32)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hS ValueIdx.ix0 = 1#1) :
    ∀ i, ∃ r : ℝ, x i = (r : EReal) := fun i =>
  haveI := subsingleton_scalarIdx
  real_of_cmp (x i) (Host.reduce_andi_all _ _ hr hS ValueIdx.ix0 e i)

variable [Cert.Pre_finite_inputs.Facts]

/-- Under the precondition every entry of the three inputs is a real number. -/
theorem real_of_pre (x0 : FVec Ideal Cert.Pre_finite_inputs.S8x512x768 .f32)
    (x1 x2 : FVec Ideal Cert.Pre_finite_inputs.S128x768 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all _ _ _ x0 h0', real_of_all _ _ _ x1 h1, real_of_all _ _ _ x2 h2⟩

end Cert.FiniteInputs

end
-- ==== Proof.Spec.lean ====
/- The mathematical specification of a pairwise squared-distance computation, and the one algebraic law behind it.
   Each of 8 × 512 embedding rows (768 numbers) is projected on 128 directions, p[b,s,r] = Σ_k e[b,s,k] · w[r,k].
   The two results are the squared distances Σ_r (p[b,i,r] − p[b,j,r])² between the projected rows of one batch and
   the squared norms Σ_r p[b,s,r]² of the projected rows. The law proved here: when every entry of e and w is a real
   number, (Σ_r p_i,r² + Σ_r p_j,r²) − 2 · Σ_r p_i,r · p_j,r equals Σ_r (p_i,r − p_j,r)², with the 2 written as the
   32-bit float pattern 0x40000000. The hypothesis is needed: on the extended reals multiplication does not distribute
   over addition at the infinities. -/
import Idealize.ShloMosaic.PureOps.Ideal.Laws
import Idealize.ShloMosaic.Lib.ValueIdx
import Mathlib.Data.EReal.Operations
import Mathlib.Algebra.BigOperators.Ring.Finset
import Mathlib.Tactic.Ring
import Mathlib.Tactic.NormNum

noncomputable section

open scoped BigOperators

namespace Cert.PairwiseDist
open Idealize.ShloMosaic Idealize.ShloMosaic.ValueIdx

/-- The projection of embedding row (b, s) on direction r. -/
def proj (e : FVec Ideal ⟨3, ![8, 512, 768]⟩ .f32) (w : FVec Ideal ⟨2, ![128, 768]⟩ .f32) (b : Fin 8) (s : Fin 512) (r : Fin 128) : EReal :=
  ∑ k : Fin 768, e (ix3 b s k) * w (ix2 r k)

/-- Squared distance between the projections of rows i and j of batch b. -/
def sqDist (e : FVec Ideal ⟨3, ![8, 512, 768]⟩ .f32) (w : FVec Ideal ⟨2, ![128, 768]⟩ .f32) : FVec Ideal ⟨3, ![8, 512, 512]⟩ .f32 :=
  fun i => ∑ r : Fin 128, (proj e w (i 0) (i 1) r - proj e w (i 0) (i 2) r) * (proj e w (i 0) (i 1) r - proj e w (i 0) (i 2) r)

/-- Squared norm of the projection of row s of batch b. -/
def depth (e : FVec Ideal ⟨3, ![8, 512, 768]⟩ .f32) (w : FVec Ideal ⟨2, ![128, 768]⟩ .f32) : FVec Ideal ⟨2, ![8, 512]⟩ .f32 :=
  fun i => ∑ r : Fin 128, proj e w (i 0) (i 1) r * proj e w (i 0) (i 1) r

/-- The f32 word of 2.0 denotes the real 2. -/
theorem ofBits_two : Ideal.ofBits .f32 0x40000000#32 = ((2 : ℝ) : EReal) := by
  simp [Ideal.ofBits, Ideal.ieee, -EReal.coe_mul]; norm_num

/-- A finite sum of real numbers, each read as an extended real, is the real sum read as an extended real. -/
theorem sum_coe_eq_coe_sum {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- Over the reals: the sum of squared differences is the two sums of squares less twice the sum of products. -/
theorem real_sum_sq_sub {ι : Type} [Fintype ι] (a b : ι → ℝ) :
    ((∑ r, a r * a r) + (∑ r, b r * b r)) - 2 * (∑ r, a r * b r) = ∑ r, (a r - b r) * (a r - b r) := by
  rw [Finset.mul_sum, ← Finset.sum_add_distrib, ← Finset.sum_sub_distrib]
  exact Finset.sum_congr rfl fun r _ => by ring

/-- A projection of real-valued arrays is a real number. -/
theorem proj_real (e : FVec Ideal ⟨3, ![8, 512, 768]⟩ .f32) (w : FVec Ideal ⟨2, ![128, 768]⟩ .f32)
    (he : ∀ i, ∃ x : ℝ, e i = (x : EReal)) (hw : ∀ i, ∃ x : ℝ, w i = (x : EReal)) (b : Fin 8) (s : Fin 512) (r : Fin 128) :
    ∃ x : ℝ, proj e w b s r = (x : EReal) := by
  choose x hx using he
  choose y hy using hw
  refine ⟨∑ k : Fin 768, x (ix3 b s k) * y (ix2 r k), ?_⟩
  unfold proj
  rw [← sum_coe_eq_coe_sum]
  exact Finset.sum_congr rfl fun k _ => by rw [hx, hy, EReal.coe_mul]

/-- The expansion of the squared distance through the Gram product, for real-valued arrays. -/
theorem gram_expansion (e : FVec Ideal ⟨3, ![8, 512, 768]⟩ .f32) (w : FVec Ideal ⟨2, ![128, 768]⟩ .f32)
    (he : ∀ i, ∃ x : ℝ, e i = (x : EReal)) (hw : ∀ i, ∃ x : ℝ, w i = (x : EReal)) (b : Fin 8) (i j : Fin 512) :
    ((∑ r : Fin 128, proj e w b i r * proj e w b i r) + (∑ r : Fin 128, proj e w b j r * proj e w b j r))
        - Ideal.ofBits .f32 0x40000000#32 * (∑ r : Fin 128, proj e w b i r * proj e w b j r)
      = sqDist e w (ix3 b i j) := by
  choose p hp using fun s r => proj_real e w he hw b s r
  show _ = ∑ r : Fin 128, (proj e w b i r - proj e w b j r) * (proj e w b i r - proj e w b j r)
  rw [ofBits_two]
  simp only [hp, ← EReal.coe_mul, ← EReal.coe_sub, sum_coe_eq_coe_sum, ← EReal.coe_add]
  exact congrArg _ (real_sum_sq_sub (p i) (p j))

end Cert.PairwiseDist

end
-- ==== Proof.RefSpec.lean ====
/-
  The reference program's two results are the specification's functions of the argument arrays.

  The reference forms the projections  p[b, s, r] = Σ_k e[b, s, k] · w[r, k]  by one general product, lays the array of
  projections out once along the rows and once along the columns of a [8, 512, 512, 128] array, subtracts, squares and
  sums over the last axis from zero: at (b, i, j) that is  Σ_r (p[b, i, r] − p[b, j, r])²  (`dist_eq`). The depths are the
  squares of the second table's projections summed over the last axis from zero:  Σ_r q[b, s, r]²  at (b, s) (`depth_eq`).
  Each layout step only re-addresses the projections, so both facts are the stages read at an index one after the other.
-/
import proofs.«121553_j90993177133168_1_alg».proof.Proof.Gen.ReferenceIdeal.Read
import proofs.«121553_j90993177133168_1_alg».proof.Proof.Spec

noncomputable section

open scoped BigOperators

namespace Cert.ReferenceIdeal.RefSpec

open Cert.ReferenceIdeal Cert.ReferenceIdeal.Read Cert.PairwiseDist Idealize.ShloMosaic Idealize.ShloMosaic.ValueIdx

/-- The first general product at (b, s, r) is the projection of row (b, s) on direction r. -/
theorem dot_dist_apply (e : FVec Ideal S8x512x768 .f32) (w : FVec Ideal S128x768 .f32) (b : Fin 8) (s : Fin 512) (r : Fin 128) :
    val_main_v0 (F := Ideal) e w (ix3 b s r) = proj e w b s r := by
  rw [val_main_v0_apply]
  refine Finset.sum_congr rfl fun k _ => congrArg₂ (· * ·) (congrArg e ?_) (congrArg w ?_)
  · exact funext fun a => match a with | ⟨0, _⟩ => rfl | ⟨1, _⟩ => rfl | ⟨2, _⟩ => rfl
  · exact funext fun a => match a with | ⟨0, _⟩ => rfl | ⟨1, _⟩ => rfl

/-- The second general product at (b, s, r) is the projection of row (b, s) on direction r of the second table. -/
theorem dot_depth_apply (e : FVec Ideal S8x512x768 .f32) (w : FVec Ideal S128x768 .f32) (b : Fin 8) (s : Fin 512) (r : Fin 128) :
    val_main_v8 (F := Ideal) e w (ix3 b s r) = proj e w b s r := by
  rw [val_main_v8_apply]
  refine Finset.sum_congr rfl fun k _ => congrArg₂ (· * ·) (congrArg e ?_) (congrArg w ?_)
  · exact funext fun a => match a with | ⟨0, _⟩ => rfl | ⟨1, _⟩ => rfl | ⟨2, _⟩ => rfl
  · exact funext fun a => match a with | ⟨0, _⟩ => rfl | ⟨1, _⟩ => rfl

/-- Laid out along the rows, entry (b, i, j, r) of the big array addresses projection (b, i, r). -/
theorem rows_idx (b : Fin 8) (i j : Fin 512) (r : Fin 128) :
    idx_main_v1 (idx_main_v3 (idx_main_v7 (ix3 b i j) r)) = ix3 b i r :=
  funext fun a => match a with | ⟨0, _⟩ => rfl | ⟨1, _⟩ => rfl | ⟨2, _⟩ => rfl

/-- Laid out along the columns, entry (b, i, j, r) of the big array addresses projection (b, j, r). -/
theorem cols_idx (b : Fin 8) (i j : Fin 512) (r : Fin 128) :
    idx_main_v2 (idx_main_v4 (idx_main_v7 (ix3 b i j) r)) = ix3 b j r :=
  funext fun a => match a with | ⟨0, _⟩ => rfl | ⟨1, _⟩ => rfl | ⟨2, _⟩ => rfl

/-- Entry (b, s, r) of the array of squares is addressed by (b, s) and the summation index r. -/
theorem depth_idx (b : Fin 8) (s : Fin 512) (r : Fin 128) : idx_main_v10 (ix2 b s) r = ix3 b s r :=
  funext fun a => match a with | ⟨0, _⟩ => rfl | ⟨1, _⟩ => rfl | ⟨2, _⟩ => rfl

/-- The reference's first result is the array of squared distances. -/
theorem dist_eq (e : FVec Ideal S8x512x768 .f32) (w : FVec Ideal S128x768 .f32) :
    val_main_v7 (F := Ideal) e w = sqDist e w := by
  funext idx
  obtain ⟨b, i, j, rfl⟩ : ∃ (b : Fin 8) (i j : Fin 512), idx = ix3 b i j := ⟨idx 0, idx 1, idx 2, eq_ix3 idx⟩
  rw [val_main_v7_apply, val_main_cst_apply]
  show Ideal.ofBits .f32 0x00000000#32 + _ = _
  rw [Ideal.ofBits_zero_f32, zero_add]
  refine Finset.sum_congr rfl fun r _ => ?_
  rw [val_main_v6_apply, val_main_v5_apply, val_main_v3_apply, val_main_v4_apply, val_main_v1_apply, val_main_v2_apply,
    rows_idx, cols_idx, dot_dist_apply, dot_dist_apply]
  rfl

/-- The reference's second result is the array of squared norms. -/
theorem depth_eq (e : FVec Ideal S8x512x768 .f32) (w : FVec Ideal S128x768 .f32) :
    val_main_v10 (F := Ideal) e w = depth e w := by
  funext idx
  obtain ⟨b, s, rfl⟩ : ∃ (b : Fin 8) (s : Fin 512), idx = ix2 b s := ⟨idx 0, idx 1, eq_ix2 idx⟩
  rw [val_main_v10_apply, val_main_cst_0_apply]
  show Ideal.ofBits .f32 0x00000000#32 + _ = _
  rw [Ideal.ofBits_zero_f32, zero_add]
  refine Finset.sum_congr rfl fun r _ => ?_
  rw [val_main_v9_apply, depth_idx, dot_depth_apply]
  rfl

end Cert.ReferenceIdeal.RefSpec

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.KernelPoint.lean ====
/-
  What the kernel body stores at one grid point, read entry by entry over the extended reals.

  At a grid point the body sees one batch's block of embeddings  x  (a [1, 512, 768] array) and a whole [128, 768]
  table of directions  w . Narrowing to bf16 is the identity on the extended reals, so the matrix unit's product of the
  block with the transposed table, into zeros, is at (i, r) the projection  P(i, r) = Σ_k x(0, i, k) · w(r, k)
  (`rowProj`, `projMat_apply`). A sum over the last axis kept as a column is at (i, 0) the sum over r (`rowNorm_apply`).
  Hence the depth block holds  Σ_r P(i, r)²  at (0, i, 0) (`depth_block_apply`), and the distance block holds
  (Σ_r P(i, r)² + Σ_r P(j, r)²) − two · Σ_r P(i, r) · P(j, r)  at (0, i, j), where the column of row norms is read once
  down the rows and once, transposed, along the columns, the Gram product of the projections with their own transpose is
  the sum over r of  P(i, r) · P(j, r) , and  two  is the f32 word of 2.0 (`dist_block_apply`).
-/
import proofs.«121553_j90993177133168_1_alg».proof.Proof.Gen.KernelIdeal.Skeleton
import proofs.«121553_j90993177133168_1_alg».proof.Proof.LibDense
import proofs.«121553_j90993177133168_1_alg».proof.Proof.LibKeepdimsColumn
import Idealize.ShloMosaic.Lib.ValueIdx
import Idealize.ShloMosaic.Lib.ValueLayout
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-- The projection of row i of an embedding block on direction r. -/
def rowProj (x : Vec Ideal S1x512x768 .f32) (w : Vec Ideal S128x768 .f32) (i : Fin 512) (r : Fin 128) : EReal :=
  ∑ k : Fin 768, x (ix3 (0 : Fin 1) i k) * w (ix2 r k)

/-- The block with its unit axis dropped and narrowed to bf16 reads, at (i, k), the block at (0, i, k). -/
theorem emb_apply (x : Vec Ideal S1x512x768 .f32) (i : Fin 512) (k : Fin 768) :
    k0_pay1 (F := Ideal) x (ix2 i k) = x (ix3 (0 : Fin 1) i k) :=
  shapeCast_1ab_ab_apply x shapeCasts_S1x512x768_S512x768 i k

/-- The table of directions narrowed to bf16 and transposed reads, at (k, r), the table at (r, k). -/
theorem dirs_apply (w : Vec Ideal S128x768 .f32) (k : Fin 768) (r : Fin 128) :
    transpose S768x128 [1, 0] (truncf .bf16 w bitsLt_bf16_f32 : FVec Ideal S128x768 .bf16) transposes_S128x768_p1_0_S768x128 (ix2 k r)
      = w (ix2 r k) :=
  transpose_ix2_apply (truncf .bf16 w bitsLt_bf16_f32 : FVec Ideal S128x768 .bf16) transposes_S128x768_p1_0_S768x128 k r

/-- The matrix of projections as the body computes it: the block times the transposed table, into zeros. -/
abbrev projMat (x : Vec Ideal S1x512x768 .f32) (w : Vec Ideal S128x768 .f32) : FVec Ideal S512x128 .f32 :=
  matmul dot_S512x768_S768x128_S512x128_1_0_0_1_n_n none (k0_pay1 (F := Ideal) x)
    (transpose S768x128 [1, 0] (truncf .bf16 w bitsLt_bf16_f32 : FVec Ideal S128x768 .bf16) transposes_S128x768_p1_0_S768x128)
    (constant (F := Ideal) S512x128 .f32 0x00000000#32)

/-- Its entry (i, r) is the projection of row i on direction r. -/
theorem projMat_apply (x : Vec Ideal S1x512x768 .f32) (w : Vec Ideal S128x768 .f32) (i : Fin 512) (r : Fin 128) :
    projMat x w (ix2 i r) = rowProj x w i r := by
  refine (Cert.Dense.matmul_zero_plain_apply dot_S512x768_S768x128_S512x128_1_0_0_1_n_n rfl rfl rfl rfl rfl rfl none
    (k0_pay1 (F := Ideal) x) _ i r).trans ?_
  exact Finset.sum_congr rfl fun k _ => congrArg₂ (· * ·) (emb_apply x i k) (dirs_apply w k r)

/-- The squared entries of a [512, 128] matrix summed along each row, kept as a [512, 1] column. -/
abbrev rowNorm (P : FVec Ideal S512x128 .f32) : FVec Ideal S512x1 .f32 :=
  shapeCast S512x1 (multiReduction .add [1] S512 (mulf P P) 0x00000000#32 reduces_S512x128_S512 (.inl rfl) rfl) shapeCasts_S512_S512x1

/-- The column at (i, 0) is the sum over r of the squared entry (i, r). -/
theorem rowNorm_apply (P : FVec Ideal S512x128 .f32) (i : Fin 512) (u : Fin 1) :
    rowNorm P (ix2 i u) = ∑ r : Fin 128, P (ix2 i r) * P (ix2 i r) := by
  refine (Cert.LibKeepdimsColumn.shapeCast_a_a1_apply _ shapeCasts_S512_S512x1 i u).trans ?_
  exact Cert.LibKeepdimsColumn.rowSum_apply (mulf P P) reduces_S512x128_S512 (.inl rfl) rfl i

/-- The depth block at (0, i, 0): the squared norm of row i's projection. -/
theorem depth_block_apply (x : Vec Ideal S1x512x768 .f32) (w : Vec Ideal S128x768 .f32) (u : Fin 1) (i : Fin 512) (z : Fin 1) :
    k0_pay2 (F := Ideal) x w (ix3 u i z) = ∑ r : Fin 128, rowProj x w i r * rowProj x w i r := by
  refine (shapeCast_ab_1ab_apply (rowNorm (projMat x w)) shapeCasts_S512x1_S1x512x1 u i z).trans ?_
  refine (rowNorm_apply (projMat x w) i z).trans ?_
  exact Finset.sum_congr rfl fun r _ => congrArg₂ (· * ·) (projMat_apply x w i r) (projMat_apply x w i r)

/-- The Gram product of a [512, 128] matrix with its own transpose, into zeros. -/
abbrev gram (P : FVec Ideal S512x128 .f32) : FVec Ideal S512x512 .f32 :=
  matmul dot_S512x128_S128x512_S512x512_1_0_0_1_n_n none (truncf .bf16 P bitsLt_bf16_f32 : FVec Ideal S512x128 .bf16)
    (transpose S128x512 [1, 0] (truncf .bf16 P bitsLt_bf16_f32 : FVec Ideal S512x128 .bf16) transposes_S512x128_p1_0_S128x512)
    (constant (F := Ideal) S512x512 .f32 0x00000000#32)

/-- Its entry (i, j) is the sum over r of the products of the entries (i, r) and (j, r). -/
theorem gram_apply (P : FVec Ideal S512x128 .f32) (i j : Fin 512) :
    gram P (ix2 i j) = ∑ r : Fin 128, P (ix2 i r) * P (ix2 j r) := by
  refine (Cert.Dense.matmul_zero_plain_apply dot_S512x128_S128x512_S512x512_1_0_0_1_n_n rfl rfl rfl rfl rfl rfl none
    (truncf .bf16 P bitsLt_bf16_f32 : FVec Ideal S512x128 .bf16) _ i j).trans ?_
  exact Finset.sum_congr rfl fun r _ => congrArg (P (ix2 i r) * ·)
    (transpose_ix2_apply (truncf .bf16 P bitsLt_bf16_f32 : FVec Ideal S512x128 .bf16) transposes_S512x128_p1_0_S128x512 r j)

/-- The column of row norms spread over the columns reads, at (i, j), the norm of row i. -/
theorem normRows_apply (P : FVec Ideal S512x128 .f32) (i j : Fin 512) :
    broadcastTo S512x512 (rowNorm P) broadcasts_S512x1_S512x512 (ix2 i j) = ∑ r : Fin 128, P (ix2 i r) * P (ix2 i r) :=
  (Cert.LibKeepdimsColumn.broadcastTo_a1_ab_apply (rowNorm P) broadcasts_S512x1_S512x512 i j).trans (rowNorm_apply P i 0)

/-- The column of row norms transposed to a row and spread over the rows reads, at (i, j), the norm of row j. -/
theorem normCols_apply (P : FVec Ideal S512x128 .f32) (i j : Fin 512) :
    broadcastTo S512x512 (transpose S1x512 [1, 0] (rowNorm P) transposes_S512x1_p1_0_S1x512) broadcasts_S1x512_S512x512 (ix2 i j)
      = ∑ r : Fin 128, P (ix2 j r) * P (ix2 j r) :=
  (broadcastTo_1b_ab_apply (transpose S1x512 [1, 0] (rowNorm P) transposes_S512x1_p1_0_S1x512) broadcasts_S1x512_S512x512 i j).trans
    ((transpose_ix2_apply (rowNorm P) transposes_S512x1_p1_0_S1x512 (0 : Fin 1) j).trans (rowNorm_apply P j 0))

/-- The distance matrix as the body arranges it from a matrix of projections. -/
abbrev gramDist (P : FVec Ideal S512x128 .f32) : FVec Ideal S512x512 .f32 :=
  subf (addf (broadcastTo S512x512 (rowNorm P) broadcasts_S512x1_S512x512)
        (broadcastTo S512x512 (transpose S1x512 [1, 0] (rowNorm P) transposes_S512x1_p1_0_S1x512) broadcasts_S1x512_S512x512))
    (mulf (broadcast S512x512 (Scalar.ofBits (F := Ideal) .f32 0x40000000#32)) (gram P))

/-- Its entry (i, j): the two row norms added, less the word of 2.0 times the Gram entry. -/
theorem gramDist_apply (P : FVec Ideal S512x128 .f32) (i j : Fin 512) :
    gramDist P (ix2 i j)
      = ((∑ r : Fin 128, P (ix2 i r) * P (ix2 i r)) + (∑ r : Fin 128, P (ix2 j r) * P (ix2 j r)))
          - Ideal.ofBits .f32 0x40000000#32 * (∑ r : Fin 128, P (ix2 i r) * P (ix2 j r)) := by
  show (broadcastTo S512x512 (rowNorm P) broadcasts_S512x1_S512x512 (ix2 i j)
        + broadcastTo S512x512 (transpose S1x512 [1, 0] (rowNorm P) transposes_S512x1_p1_0_S1x512) broadcasts_S1x512_S512x512 (ix2 i j))
      - Ideal.ofBits .f32 0x40000000#32 * gram P (ix2 i j) = _
  rw [normRows_apply, normCols_apply, gram_apply]

/-- The distance block at (0, i, j), over the projections of rows i and j. -/
theorem dist_block_apply (x : Vec Ideal S1x512x768 .f32) (w : Vec Ideal S128x768 .f32) (u : Fin 1) (i j : Fin 512) :
    k0_pay3 (F := Ideal) x w (ix3 u i j)
      = ((∑ r : Fin 128, rowProj x w i r * rowProj x w i r) + (∑ r : Fin 128, rowProj x w j r * rowProj x w j r))
          - Ideal.ofBits .f32 0x40000000#32 * (∑ r : Fin 128, rowProj x w i r * rowProj x w j r) := by
  refine (shapeCast_ab_1ab_apply (gramDist (projMat x w)) shapeCasts_S512x512_S1x512x512 u i j).trans ?_
  refine (gramDist_apply (projMat x w) i j).trans ?_
  simp only [projMat_apply]

end Cert.KernelIdeal.Point

end
-- ==== Proof.KernelArray.lean ====
/-
  The kernel's two results as whole arrays, over the extended reals.

  The grid has one point per batch b. At point b the body sees rows (b, ·, ·) of the embeddings and both tables of
  directions whole, and writes back the [1, 512, 512] block (b, ·, ·) of the distances and the [1, 512, 1] block
  (b, ·, 0) of the depth column. A coordinate of a block is always  block index × block extent + 1 × coordinate inside
  the block ; the index maps are (b, 0, 0) for the three blocked windows and (0, 0) for the two tables (`idx_facts`).
  So the projections the body forms at point b are the specification's projections of batch b (`rowProj_dist`,
  `rowProj_depth`), the block it writes back is block b of the array of squared distances — here the expansion of the
  squared distance through the Gram product is used, which needs every input entry to be a real number — and block b of
  the column of squared norms (`dist_flushed`, `depth_flushed`). The eight blocks tile each array (`dist_cover`,
  `depth_cover`), so the arrays end holding those functions (`dist_final`, `depth_final`). After the region the host drops
  the depth column's unit axis: entry (b, s) of the result is entry (b, s, 0) of the column (`depth_tail`).
-/
import proofs.«121553_j90993177133168_1_alg».proof.Proof.Gen.KernelIdeal.Frame
import proofs.«121553_j90993177133168_1_alg».proof.Proof.KernelPoint
import proofs.«121553_j90993177133168_1_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Arrays

open Cert.KernelIdeal Cert.KernelIdeal.Gen Cert.KernelIdeal.Point Cert.PairwiseDist
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The embeddings, and the two tables of directions, as the program is launched with them. -/
abbrev embArr (c : Dev nD) : FVec Ideal S8x512x768 .f32 := m ((c : Thread nD τ).loc main_arg0)
abbrev distDirs (c : Dev nD) : FVec Ideal S128x768 .f32 := m ((c : Thread nD τ).loc main_arg1)
abbrev depthDirs (c : Dev nD) : FVec Ideal S128x768 .f32 := m ((c : Thread nD τ).loc main_arg2)

/-- The squared norms laid out as the kernel's [8, 512, 1] column. -/
def depthCol (e : FVec Ideal S8x512x768 .f32) (w : FVec Ideal S128x768 .f32) : FVec Ideal S8x512x1 .f32 :=
  fun i => ∑ r : Fin 128, proj e w (i 0) (i 1) r * proj e w (i 0) (i 1) r

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the blocked windows move with the point along axis 0 only, the tables do not move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The batch a grid point works on. -/
def batchOf (t : Fin cfg0.N) : Fin 8 := ⟨t.val, by have h : grid0.N = 8 := N_0; have ht : t.val < grid0.N := t.isLt; omega⟩

/-- Row (0, i, k) of the embedding block at point t is row (batch, i, k) of the embeddings. -/
theorem emb_blk (c : Dev nD) (t : Fin cfg0.N) (u : Fin 1) (i : Fin 512) (k : Fin 768) :
    iblk m c 0 t (ix3 u i k) = embArr m c (ix3 (batchOf t) i k) := by
  obtain ⟨e0, e1, e2, -⟩ := idx_facts t
  show V m c main_arg0 (((cfg0.win 0).blk t).view.emb (ix3 u i k)) = V m c main_arg0 (ix3 (batchOf t) i k)
  refine congrArg (V m c main_arg0) (funext fun a => Fin.ext ?_)
  match a with
  | ⟨0, _⟩ => show win0_0.index t (0 : Fin 3) * 1 + 1 * u.val = t.val; have := u.isLt; omega
  | ⟨1, _⟩ => show win0_0.index t (1 : Fin 3) * 512 + 1 * i.val = i.val; omega
  | ⟨2, _⟩ => show win0_0.index t (2 : Fin 3) * 768 + 1 * k.val = k.val; omega

/-- The first table's block at any point is the table. -/
theorem distDirs_blk (c : Dev nD) (t : Fin cfg0.N) (r : Fin 128) (k : Fin 768) :
    iblk m c 1 t (ix2 r k) = distDirs m c (ix2 r k) := by
  obtain ⟨-, -, -, e0, e1, -⟩ := idx_facts t
  show V m c main_arg1 (((cfg0.win 1).blk t).view.emb (ix2 r k)) = V m c main_arg1 (ix2 r k)
  refine congrArg (V m c main_arg1) (funext fun a => Fin.ext ?_)
  match a with
  | ⟨0, _⟩ => show win0_1.index t (0 : Fin 2) * 128 + 1 * r.val = r.val; omega
  | ⟨1, _⟩ => show win0_1.index t (1 : Fin 2) * 768 + 1 * k.val = k.val; omega

/-- The second table's block at any point is the table. -/
theorem depthDirs_blk (c : Dev nD) (t : Fin cfg0.N) (r : Fin 128) (k : Fin 768) :
    iblk m c 2 t (ix2 r k) = depthDirs m c (ix2 r k) := by
  obtain ⟨-, -, -, -, -, e0, e1, -⟩ := idx_facts t
  show V m c main_arg2 (((cfg0.win 2).blk t).view.emb (ix2 r k)) = V m c main_arg2 (ix2 r k)
  refine congrArg (V m c main_arg2) (funext fun a => Fin.ext ?_)
  match a with
  | ⟨0, _⟩ => show win0_2.index t (0 : Fin 2) * 128 + 1 * r.val = r.val; omega
  | ⟨1, _⟩ => show win0_2.index t (1 : Fin 2) * 768 + 1 * k.val = k.val; omega

/-- The body's projections at point t on the first table are the projections of that point's batch. -/
theorem rowProj_dist (c : Dev nD) (t : Fin cfg0.N) (i : Fin 512) (r : Fin 128) :
    rowProj (iblk m c 0 t) (iblk m c 1 t) i r = proj (embArr m c) (distDirs m c) (batchOf t) i r := by
  unfold rowProj proj
  exact Finset.sum_congr rfl fun k _ => congrArg₂ (· * ·) (emb_blk m c t 0 i k) (distDirs_blk m c t r k)

/-- The same on the second table. -/
theorem rowProj_depth (c : Dev nD) (t : Fin cfg0.N) (i : Fin 512) (r : Fin 128) :
    rowProj (iblk m c 0 t) (iblk m c 2 t) i r = proj (embArr m c) (depthDirs m c) (batchOf t) i r := by
  unfold rowProj proj
  exact Finset.sum_congr rfl fun k _ => congrArg₂ (· * ·) (emb_blk m c t 0 i k) (depthDirs_blk m c t r k)

/-- Entry (0, i, j) of the distance block at point t is entry (batch, i, j) of the array. -/
theorem dist_emb (t : Fin cfg0.N) (u : Fin 1) (i j : Fin 512) :
    ((cfg0.win 3).blk t).view.emb (ix3 u i j) = ix3 (batchOf t) i j := by
  obtain ⟨-, -, -, -, -, -, -, e0, e1, e2, -⟩ := idx_facts t
  refine funext fun a => Fin.ext ?_
  match a with
  | ⟨0, _⟩ => show win0_3.index t (0 : Fin 3) * 1 + 1 * u.val = t.val; have := u.isLt; omega
  | ⟨1, _⟩ => show win0_3.index t (1 : Fin 3) * 512 + 1 * i.val = i.val; omega
  | ⟨2, _⟩ => show win0_3.index t (2 : Fin 3) * 512 + 1 * j.val = j.val; omega

/-- Entry (0, i, 0) of the depth block at point t is entry (batch, i, 0) of the column. -/
theorem depth_emb (t : Fin cfg0.N) (u : Fin 1) (i : Fin 512) (z : Fin 1) :
    ((cfg0.win 4).blk t).view.emb (ix3 u i z) = ix3 (batchOf t) i (0 : Fin 1) := by
  obtain ⟨-, -, -, -, -, -, -, -, -, -, e0, e1, e2⟩ := idx_facts t
  refine funext fun a => Fin.ext ?_
  match a with
  | ⟨0, _⟩ => show win0_4.index t (0 : Fin 3) * 1 + 1 * u.val = t.val; have := u.isLt; omega
  | ⟨1, _⟩ => show win0_4.index t (1 : Fin 3) * 512 + 1 * i.val = i.val; omega
  | ⟨2, _⟩ => show win0_4.index t (2 : Fin 3) * 1 + 1 * z.val = 0; have := z.isLt; omega

/-- What point t writes back to the distances is block t of the array of squared distances, for real-valued inputs. -/
theorem dist_flushed (c : Dev nD) (he : ∀ i, ∃ x : ℝ, embArr m c i = (x : EReal)) (hw : ∀ i, ∃ x : ℝ, distDirs m c i = (x : EReal))
    (t : Fin cfg0.N) :
    (dats m 0 c).flushed 3 t = ((cfg0.win 3).blk t).view.read (Elt Ideal) (sqDist (embArr m c) (distDirs m c)) := by
  show (cfg0.win 3).cut (grid0.coords t) ((dats m 0 c).after 3 t) = _
  rw [after0_3]
  unfold out0_3
  rw [View.canon_unit_zero hz3]
  simp only [View.ld_unit_zero (S := S1x512x768) hz3, View.ld_unit_zero (S := S128x768) hz2]
  refine funext fun (y : S1x512x512.Idx) => ?_
  obtain ⟨u, i, j, rfl⟩ : ∃ (u : Fin 1) (i j : Fin 512), y = ix3 u i j := ⟨y 0, y 1, y 2, eq_ix3 y⟩
  show k0_pay3 (F := Ideal) (iblk m c 0 t) (iblk m c 1 t) (ix3 u i j)
    = sqDist (embArr m c) (distDirs m c) (((cfg0.win 3).blk t).view.emb (ix3 u i j))
  rw [dist_emb]
  refine (dist_block_apply (iblk m c 0 t) (iblk m c 1 t) u i j).trans ?_
  simp only [rowProj_dist]
  exact gram_expansion (embArr m c) (distDirs m c) he hw (batchOf t) i j

/-- What point t writes back to the depth column is block t of the column of squared norms. -/
theorem depth_flushed (c : Dev nD) (t : Fin cfg0.N) :
    (dats m 0 c).flushed 4 t = ((cfg0.win 4).blk t).view.read (Elt Ideal) (depthCol (embArr m c) (depthDirs m c)) := by
  show (cfg0.win 4).cut (grid0.coords t) ((dats m 0 c).after 4 t) = _
  rw [after0_4]
  unfold out0_4
  rw [View.canon_unit_zero hz3]
  simp only [View.ld_unit_zero (S := S1x512x768) hz3, View.ld_unit_zero (S := S128x768) hz2]
  refine funext fun (y : S1x512x1.Idx) => ?_
  obtain ⟨u, i, z, rfl⟩ : ∃ (u : Fin 1) (i : Fin 512) (z : Fin 1), y = ix3 u i z := ⟨y 0, y 1, y 2, eq_ix3 y⟩
  show k0_pay2 (F := Ideal) (iblk m c 0 t) (iblk m c 2 t) (ix3 u i z)
    = depthCol (embArr m c) (depthDirs m c) (((cfg0.win 4).blk t).view.emb (ix3 u i z))
  rw [depth_emb]
  refine (depth_block_apply (iblk m c 0 t) (iblk m c 2 t) u i z).trans ?_
  simp only [rowProj_depth]
  rfl

/-- An index of the distances is in point t's block iff each coordinate is in the block's range on its axis. -/
theorem mem_dist_blk (t : Fin cfg0.N) (i : S8x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0_0).slice (win0_3.rect t)).set ↔ _
  rw [View.set_slice_whole, Rect.mem_set_unit]
  exact Iff.rfl

/-- The same for the depth column. -/
theorem mem_depth_blk (t : Fin cfg0.N) (i : S8x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v0_1).slice (win0_4.rect t)).set ↔ _
  rw [View.set_slice_whole, Rect.mem_set_unit]
  exact Iff.rfl

/-- The point whose batch is b. -/
def pointOf (b : Nat) (hb : b < 8) : Fin cfg0.N := ⟨b, by show b < grid0.N; have h : grid0.N = 8 := N_0; omega⟩

/-- Every index of the distances lies in the block of the point of its batch. -/
theorem dist_cover (i : S8x512x512.Idx) :
    ∃ t : Fin cfg0.N, (cfg0.win 3).flush t = true ∧ i ∈ ((cfg0.win 3).blk t).view.set := by
  have h0 : (i 0).val < 8 := (i 0).isLt
  have h1 : (i 1).val < 512 := (i 1).isLt
  have h2 : (i 2).val < 512 := (i 2).isLt
  refine ⟨pointOf (i 0).val h0, flush0_3 _, ?_⟩
  rw [mem_dist_blk]
  obtain ⟨-, -, -, -, -, -, -, e0, e1, e2, -⟩ := idx_facts (pointOf (i 0).val h0)
  have ht : (pointOf (i 0).val h0).val = (i 0).val := rfl
  intro a
  match a with
  | ⟨0, _⟩ => show win0_3.index (pointOf (i 0).val h0) (0 : Fin 3) * 1 ≤ (i 0).val ∧ (i 0).val < win0_3.index (pointOf (i 0).val h0) (0 : Fin 3) * 1 + 1; omega
  | ⟨1, _⟩ => show win0_3.index (pointOf (i 0).val h0) (1 : Fin 3) * 512 ≤ (i 1).val ∧ (i 1).val < win0_3.index (pointOf (i 0).val h0) (1 : Fin 3) * 512 + 512; omega
  | ⟨2, _⟩ => show win0_3.index (pointOf (i 0).val h0) (2 : Fin 3) * 512 ≤ (i 2).val ∧ (i 2).val < win0_3.index (pointOf (i 0).val h0) (2 : Fin 3) * 512 + 512; omega

/-- Every index of the depth column lies in the block of the point of its batch. -/
theorem depth_cover (i : S8x512x1.Idx) :
    ∃ t : Fin cfg0.N, (cfg0.win 4).flush t = true ∧ i ∈ ((cfg0.win 4).blk t).view.set := by
  have h0 : (i 0).val < 8 := (i 0).isLt
  have h1 : (i 1).val < 512 := (i 1).isLt
  have h2 : (i 2).val < 1 := (i 2).isLt
  refine ⟨pointOf (i 0).val h0, flush0_4 _, ?_⟩
  rw [mem_depth_blk]
  obtain ⟨-, -, -, -, -, -, -, -, -, -, e0, e1, e2⟩ := idx_facts (pointOf (i 0).val h0)
  have ht : (pointOf (i 0).val h0).val = (i 0).val := rfl
  intro a
  match a with
  | ⟨0, _⟩ => show win0_4.index (pointOf (i 0).val h0) (0 : Fin 3) * 1 ≤ (i 0).val ∧ (i 0).val < win0_4.index (pointOf (i 0).val h0) (0 : Fin 3) * 1 + 1; omega
  | ⟨1, _⟩ => show win0_4.index (pointOf (i 0).val h0) (1 : Fin 3) * 512 ≤ (i 1).val ∧ (i 1).val < win0_4.index (pointOf (i 0).val h0) (1 : Fin 3) * 512 + 512; omega
  | ⟨2, _⟩ => show win0_4.index (pointOf (i 0).val h0) (2 : Fin 3) * 1 ≤ (i 2).val ∧ (i 2).val < win0_4.index (pointOf (i 0).val h0) (2 : Fin 3) * 1 + 1; omega

/-- The distances after the run: the array of squared distances, for real-valued inputs. -/
theorem dist_final (c : Dev nD) (he : ∀ i, ∃ x : ℝ, embArr m c i = (x : EReal)) (hw : ∀ i, ∃ x : ℝ, distDirs m c i = (x : EReal)) :
    (dats m 0 c).arrAt 3 cfg0.N = sqDist (embArr m c) (distDirs m c) :=
  (dats m 0 c).arrAt_eq_of_cover 3 (sqDist (embArr m c) (distDirs m c)) (fun t _ => dist_flushed m c he hw t) dist_cover

/-- The depth column after the run: the column of squared norms. -/
theorem depth_final (c : Dev nD) : (dats m 0 c).arrAt 4 cfg0.N = depthCol (embArr m c) (depthDirs m c) :=
  (dats m 0 c).arrAt_eq_of_cover 4 (depthCol (embArr m c) (depthDirs m c)) (fun t _ => depth_flushed m c t) depth_cover

/-- An [a, b, 1] array with its unit axis dropped reads, at (i, j), the array at (i, j, 0). -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- The host's result after the region: the depth column with its unit axis dropped is the array of squared norms. -/
theorem depth_tail (c : Dev nD) :
    Pipeline.afterTail₀ cfgs (dats m) 0 (V0 m) [hostOps1] c main_v1 = depth (embArr m c) (depthDirs m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_1)
      = depthCol (embArr m c) (depthDirs m c) :=
    (Pipeline.withArrays_arr spec0 launch0.win.arr_inj c _ _ 4).trans (depth_final m c)
  refine funext fun (idx : S8x512.Idx) => ?_
  obtain ⟨b, s, rfl⟩ : ∃ (b : Fin 8) (s : Fin 512), idx = ix2 b s := ⟨idx 0, idx 1, eq_ix2 idx⟩
  show shapeCast S8x512 (Pipeline.withArrays (cfgs 0).spec c (V0 m c) (fun w => (dats m 0 c).arrAt w (cfgs 0).N) (Proc.devRef .tc main_v0_1))
    shapeCasts_S8x512x1_S8x512 (ix2 b s) = _
  rw [e]
  exact (shapeCast_ab1_ab_apply (depthCol (embArr m c) (depthDirs m c)) shapeCasts_S8x512x1_S8x512 b s).trans rfl

/-- The reshaped result's buffer is none of the region's arrays and is not scoped. -/
theorem main_v1_rest : main_v1 ∈ Pipeline.restRefs sig (cfgs 0).spec :=
  Pipeline.mem_restRefs_of main_v1 rfl (by decide)

/-- The run, read: on every device the two results end at the squared distances and the squared norms of the launch
    contents, and the arguments end unchanged — for inputs whose embeddings and first table are real-valued. -/
theorem run (hfin : ∀ c : Dev nD, (∀ i, ∃ x : ℝ, embArr m c i = (x : EReal)) ∧ (∀ i, ∃ x : ℝ, distDirs m c i = (x : EReal))) :
    θ_run defs (onTc (τ := τ) (main (F := Ideal))) ⟨m, fun _ => 0, ρ⟩ fun r => ∀ c : Dev nD,
      r.2.mem ((c : Thread nD τ).loc main_v0_0) = sqDist (embArr m c) (distDirs m c)
      ∧ r.2.mem ((c : Thread nD τ).loc main_v1) = depth (embArr m c) (depthDirs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (dist_final m c (hfin c).1 (hfin c).2),
      ((h c).2 main_v1 main_v1_rest).trans (depth_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Arrays

end
-- ==== Proof.lean ====
/-
  Pairwise squared distances and depths of projected embeddings: the kernel against its reference, over the extended reals.

  Both programs project each of 8 × 512 embedding rows on 128 directions,  p[b, s, r] = Σ_k e[b, s, k] · w[r, k] , once
  with each of two tables of directions. The reference returns  Σ_r (p[b, i, r] − p[b, j, r])²  and  Σ_r q[b, s, r]² .
  The kernel forms, one batch per grid point, the row norms  n_i = Σ_r p_i,r²  and the Gram product  g_ij = Σ_r p_i,r · p_j,r
  and returns  (n_i + n_j) − 2 · g_ij  and the row norms of the second projection. Narrowing to bf16 is the identity on
  the extended reals and the matrix unit's product into zeros is the plain sum, so the two agree by the expansion
  Σ_r (a_r − b_r)² = Σ_r a_r² + Σ_r b_r² − 2 · Σ_r a_r · b_r , which holds when every entry is a real number: that is where
  the precondition (every input finite) is used. The depths agree as they stand.

  The three frames are the generated ones (the reference's is its run with the results dropped); no operation was
  rewritten when the kernel was idealized, so that conjunct is trivial; the algebraic conjunct names both results by
  the specification's functions of the launch contents and reads each program's run at them.
-/
import proofs.«121553_j90993177133168_1_alg».proof.Defs
import proofs.«121553_j90993177133168_1_alg».proof.Proof.Gen.Kernel
import proofs.«121553_j90993177133168_1_alg».proof.Proof.Gen.Kernel.Skeleton
import proofs.«121553_j90993177133168_1_alg».proof.Proof.Gen.Kernel.Launch
import proofs.«121553_j90993177133168_1_alg».proof.Proof.Gen.Kernel.Points
import proofs.«121553_j90993177133168_1_alg».proof.Proof.Gen.Kernel.Frame
import proofs.«121553_j90993177133168_1_alg».proof.Proof.Gen.KernelIdeal
import proofs.«121553_j90993177133168_1_alg».proof.Proof.Gen.KernelIdeal.Skeleton
import proofs.«121553_j90993177133168_1_alg».proof.Proof.Gen.KernelIdeal.Launch
import proofs.«121553_j90993177133168_1_alg».proof.Proof.Gen.KernelIdeal.Points
import proofs.«121553_j90993177133168_1_alg».proof.Proof.Gen.KernelIdeal.Frame
import proofs.«121553_j90993177133168_1_alg».proof.Proof.Gen.ReferenceIdeal
import proofs.«121553_j90993177133168_1_alg».proof.Proof.Gen.Pre_finite_inputs
import proofs.«121553_j90993177133168_1_alg».proof.Proof.Gen.ReferenceIdeal.Run
import proofs.«121553_j90993177133168_1_alg».proof.Proof.Gen.ReferenceIdeal.Read
import proofs.«121553_j90993177133168_1_alg».proof.Proof.Finite
import proofs.«121553_j90993177133168_1_alg».proof.Proof.RefSpec
import proofs.«121553_j90993177133168_1_alg».proof.Proof.KernelArray
import Idealize.ShloMosaic.Adequacy
import Idealize.ShloMosaic.Init

noncomputable section

namespace Cert.Proof

open Idealize.ShloMosaic Idealize.ShloMosaic.TcCoe Idealize.SL.Sem
open Cert.PairwiseDist Cert.KernelIdeal.Arrays

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, under the precondition, both programs end with the squared distances and
    the squared norms of the launch contents: the kernel by its run read over real-valued inputs, the reference by its
    run read stage by stage. -/
theorem algebraic : Cert.algebraic_KernelIdeal_ReferenceIdeal := by
  intro m ρ m' ρ' hpre hagree
  have hfin := fun c => Cert.FiniteInputs.real_of_pre _ _ _ (hpre c)
  refine ⟨fun c => sqDist (embArr m c) (distDirs m c), fun c => depth (embArr m c) (depthDirs m c),
    Cert.KernelIdeal.Arrays.run m ρ (fun c => ⟨(hfin c).1, (hfin c).2.1⟩), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v7_eq, Cert.ReferenceIdeal.RefSpec.dist_eq, (hagree c).1, (hagree c).2.1]
  · rw [(h c).2.1, Cert.ReferenceIdeal.Read.val_main_v10_eq, Cert.ReferenceIdeal.RefSpec.depth_eq, (hagree c).1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
